-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x2048 : Shape := ⟨2, ![200, 2048]⟩
abbrev S1x50000 : Shape := ⟨2, ![1, 50000]⟩
abbrev S1 : Shape := ⟨1, ![1]⟩
abbrev S_ : Shape := ⟨0, ![]⟩

class Facts : Prop where
  bcast_S_S1x50000 : S_.BroadcastsInDim S1x50000 (![] : Fin 0 → Fin S1x50000.rank)
  reducesTo_S1x50000_S_d0_1 : S1x50000.ReducesTo [0, 1] S_
  h_S_ : 0 < S_.numel
  bcast_S_S1 : S_.BroadcastsInDim S1 (![] : Fin 0 → Fin S1.rank)
  reducesTo_S1_S_d0 : S1.ReducesTo [0] S_
  bcast_S_S200x2048 : S_.BroadcastsInDim S200x2048 (![] : Fin 0 → Fin S200x2048.rank)
  reducesTo_S200x2048_S_d0_1 : S200x2048.ReducesTo [0, 1] S_

variable [Facts]

def fn {F : FTy → Type} [FloatOps F] (main_arg0 : IVec S200x2048 32) (main_arg1 : FVec F S1x50000 .f32) (main_arg2 : FVec F S1 .f32) : IVec S_ 1 :=
  let main_v0 : FVec F S1x50000 .f32 := Host.absf main_arg1
  let main_cst : FVec F S_ .f32 := constant S_ .f32 0x7F800000#32
  let main_v1 : FVec F S1x50000 .f32 := broadcastInDim S1x50000 ![] bcast_S_S1x50000 main_cst
  let main_v2 : IVec S1x50000 1 := cmpf .olt main_v0 main_v1
  let main_c : IVec S_ 1 := constantI S_ 1 1#1
  let main_v3 : IVec S_ 1 := (fun x v => Host.reduce IntOp.andi x v reducesTo_S1x50000_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S200x2048 32 := broadcastInDim S200x2048 ![] bcast_S_S200x2048 main_c_2
  let main_v10 : IVec S200x2048 1 := cmpi .sge main_arg0 main_v9
  let main_c_3 : IVec S_ 1 := constantI S_ 1 1#1
  let main_v11 : IVec S_ 1 := (fun x v => Host.reduce IntOp.andi x v reducesTo_S200x2048_S_d0_1 h_S_) main_v10 main_c_3
  let main_v12 : IVec S_ 1 := andi main_v8 main_v11
  main_v12
-- ==== Kernel.lean ====
abbrev S200x2048 : Shape := ⟨2, ![200, 2048]⟩
abbrev S1x50000 : Shape := ⟨2, ![1, 50000]⟩
abbrev S1 : Shape := ⟨1, ![1]⟩
abbrev S_ : Shape := ⟨0, ![]⟩
abbrev S1x50048 : Shape := ⟨2, ![1, 50048]⟩
abbrev S1x1 : Shape := ⟨2, ![1, 1]⟩
abbrev S2048x1 : Shape := ⟨2, ![2048, 1]⟩
abbrev S200x128 : Shape := ⟨2, ![200, 128]⟩
abbrev S1x128 : Shape := ⟨2, ![1, 128]⟩
abbrev S128x1 : Shape := ⟨2, ![128, 1]⟩
abbrev S1x1x128 : Shape := ⟨3, ![1, 1, 128]⟩
abbrev S200x128x1 : Shape := ⟨3, ![200, 128, 1]⟩
abbrev S200x128x128 : Shape := ⟨3, ![200, 128, 128]⟩

abbrev nBuf : Space → Nat
  | .hbm => 8
  | .vmem => 7
  | .smem => 0
  | _ => 0

abbrev bufTy : (tb : Table) → Fin (tcTables nBuf tb) → BufTy
  | .hbm, ⟨0, _⟩ => ⟨S200x2048, .i32⟩
  | .hbm, ⟨1, _⟩ => ⟨S1x50000, .f32⟩
  | .hbm, ⟨2, _⟩ => ⟨S1, .f32⟩
  | .hbm, ⟨3, _⟩ => ⟨S_, .i32⟩
  | .hbm, ⟨4, _⟩ => ⟨S_, .f32⟩
  | .hbm, ⟨5, _⟩ => ⟨S1x50048, .f32⟩
  | .hbm, ⟨6, _⟩ => ⟨S1x1, .f32⟩
  | .hbm, ⟨7, _⟩ => ⟨S2048x1, .f32⟩
  | .local _ .vmem, ⟨0, _⟩ => ⟨S200x128, .i32⟩
  | .local _ .vmem, ⟨1, _⟩ => ⟨S200x128, .i32⟩
  | .local _ .vmem, ⟨2, _⟩ => ⟨S1x128, .f32⟩
  | .local _ .vmem, ⟨3, _⟩ => ⟨S1x128, .f32⟩
  | .local _ .vmem, ⟨4, _⟩ => ⟨S1x1, .f32⟩
  | .local _ .vmem, ⟨5, _⟩ => ⟨S128x1, .f32⟩
  | .local _ .vmem, ⟨6, _⟩ => ⟨S128x1, .f32⟩
  | _, _ => ⟨S200x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 391], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1x50000_S1x50048_000_0480 : S1x50000.Pads (![0, 0] : Fin 2 → Nat) ![0, 48] ![0, 0] S1x50048
  h_S_ : 0 < S_.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S200x128_S200x128_0_0 : ∀ a, (![0, 0] : Fin 2 → Nat) a + S200x128.size a ≤ S200x128.size a
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S1x1x128_d2_w32 : S1x1x128.Iotas .tc 32 [2]
  shapeCasts_S200x128_S200x128x1 : S200x128.ShapeCasts S200x128x1
  broadcasts_S200x128x1_S200x128x128 : S200x128x1.Broadcasts S200x128x128
  broadcasts_S1x1x128_S200x128x128 : S1x1x128.Broadcasts S200x128x128
  natLt_1_32 : 1 < 32
  shapeCasts_S1x128_S1x1x128 : S1x128.ShapeCasts S1x1x128
  reduces_S200x128x128_S200x128 : S200x128x128.Reduces [2] S200x128
  reduces_S200x128x1_S128x1 : S200x128x1.Reduces [0] S128x1
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S200x2048.size a
  hwx0_0 : ∀ i : grid0.Coords, EltTy.bits .i32 = 32 ∨ (Rect.block (s := S200x2048) S200x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x50048.size a
  hwx0_1 : ∀ i : grid0.Coords, EltTy.bits .f32 = 32 ∨ (Rect.block (s := S1x50048) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S2048x1.size a
  hwx0_3 : ∀ i : grid0.Coords, EltTy.bits .f32 = 32 ∨ (Rect.block (s := S2048x1) S128x1.size (cc0_transform_3 i) (hinb0_3 i)).WholeWords (EltTy.packing .f32)

variable [Facts₀]

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200x2048 : Shape := ⟨2, ![200, 2048]⟩
abbrev S1x50000 : Shape := ⟨2, ![1, 50000]⟩
abbrev S1 : Shape := ⟨1, ![1]⟩
abbrev S2048 : Shape := ⟨1, ![2048]⟩
abbrev S1x2048 : Shape := ⟨2, ![1, 2048]⟩
abbrev S_ : Shape := ⟨0, ![]⟩
abbrev S2048x50000 : Shape := ⟨2, ![2048, 50000]⟩
abbrev S200x2048x1 : Shape := ⟨3, ![200, 2048, 1]⟩
abbrev S200x2048x2 : Shape := ⟨3, ![200, 2048, 2]⟩
abbrev S50000x1 : Shape := ⟨2, ![50000, 1]⟩
abbrev S2048x1 : Shape := ⟨2, ![2048, 1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S200x2048, .i32⟩
  | .hbm, ⟨1, _⟩ => ⟨S1x50000, .f32⟩
  | .hbm, ⟨2, _⟩ => ⟨S1, .f32⟩
  | .hbm, ⟨3, _⟩ => ⟨S2048, .i32⟩
  | .hbm, ⟨4, _⟩ => ⟨S1x2048, .i32⟩
  | .hbm, ⟨5, _⟩ => ⟨S200x2048, .i32⟩
  | .hbm, ⟨6, _⟩ => ⟨S_, .f32⟩
  | .hbm, ⟨7, _⟩ => ⟨S2048x50000, .f32⟩
  | .hbm, ⟨8, _⟩ => ⟨S_, .i32⟩
  | .hbm, ⟨9, _⟩ => ⟨S200x2048, .i32⟩
  | .hbm, ⟨10, _⟩ => ⟨S200x2048, .i1⟩
  | .hbm, ⟨11, _⟩ => ⟨S_, .i32⟩
  | .hbm, ⟨12, _⟩ => ⟨S200x2048, .i32⟩
  | .hbm, ⟨13, _⟩ => ⟨S200x2048, .i32⟩
  | .hbm, ⟨14, _⟩ => ⟨S200x2048, .i32⟩
  | .hbm, ⟨15, _⟩ => ⟨S_, .i32⟩
  | .hbm, ⟨16, _⟩ => ⟨S200x2048, .i32⟩
  | .hbm, ⟨17, _⟩ => ⟨S200x2048, .i1⟩
  | .hbm, ⟨18, _⟩ => ⟨S_, .i32⟩
  | .hbm, ⟨19, _⟩ => ⟨S200x2048, .i32⟩
  | .hbm, ⟨20, _⟩ => ⟨S200x2048, .i32⟩
  | .hbm, ⟨21, _⟩ => ⟨S200x2048, .i32⟩
  | .hbm, ⟨22, _⟩ => ⟨S200x2048x1, .i32⟩
  | .hbm, ⟨23, _⟩ => ⟨S200x2048x1, .i32⟩
  | .hbm, ⟨24, _⟩ => ⟨S200x2048x2, .i32⟩
  | .hbm, ⟨25, _⟩ => ⟨S_, .f32⟩
  | .hbm, ⟨26, _⟩ => ⟨S200x2048, .f32⟩
  | .hbm, ⟨27, _⟩ => ⟨S2048x50000, .f32⟩
  | .hbm, ⟨28, _⟩ => ⟨S50000x1, .f32⟩
  | .hbm, ⟨29, _⟩ => ⟨S2048x1, .f32⟩
  | .hbm, ⟨30, _⟩ => ⟨S1x1, .f32⟩
  | .hbm, ⟨31, _⟩ => ⟨S2048x1, .f32⟩
  | .hbm, ⟨32, _⟩ => ⟨S2048x1, .f32⟩
  | _, _ => ⟨S200x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S200x2048_0_1 : S1x2048.BroadcastsInDim S200x2048 (![0, 1] : Fin 2 → Fin S200x2048.rank)
  bcast_S_S2048x50000 : S_.BroadcastsInDim S2048x50000 (![] : Fin 0 → Fin S2048x50000.rank)
  bcast_S_S200x2048 : S_.BroadcastsInDim S200x2048 (![] : Fin 0 → Fin S200x2048.rank)
  bcast_S200x2048_S200x2048x1_0_1 : S200x2048.BroadcastsInDim S200x2048x1 (![0, 1] : Fin 2 → Fin S200x2048x1.rank)
  concatenates_S200x2048x1_S200x2048x1_S200x2048x2_d2 : Shape.Concatenates [S200x2048x1, S200x2048x1] S200x2048x2 2
  transposes_S1x50000_S50000x1_1_0 : S1x50000.Transposes [1, 0] S50000x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S2048x50000_S200x2048x2_S200x2048_n_01_01_2_wf : ScatterDims.WF S2048x50000 S200x2048x2 S200x2048 [] [0, 1] [0, 1] 2
  dot_S2048x50000_S50000x1_S2048x1_1_0_0_1_n_n_wf : DotDims.WF S2048x50000 S50000x1 S2048x1 [1] [0] [0] [1] [] []

variable [Facts₀]

def scatter_S2048x50000_S200x2048x2_S200x2048_n_01_01_2 : ScatterDims S2048x50000 S200x2048x2 S200x2048 where
  updateWindowDims := []
  insertedWindowDims := [0, 1]
  scatterDimsToOperandDims := [0, 1]
  indexVectorDim := 2
  wf := scatter_S2048x50000_S200x2048x2_S200x2048_n_01_01_2_wf
def dot_S2048x50000_S50000x1_S2048x1_1_0_0_1_n_n : DotDims S2048x50000 S50000x1 S2048x1 where
  lhsContracting := [1]
  rhsContracting := [0]
  lhsNonContracting := [0]
  rhsNonContracting := [1]
  lhsBatch := []
  rhsBatch := []
  wf := dot_S2048x50000_S50000x1_S2048x1_1_0_0_1_n_n_wf

class Facts : Prop extends Facts₀ where

variable [Facts]
-- ==== Proof.TokenSum.lean ====
/-
  The mathematics both programs compute, free of either program.

  A phrase is a column of 200 token ids; its score is the sum, over the phrase's tokens, of the token's weight, plus the
  bias. A token id that is not a vocabulary id (50000 or above) carries weight 0: the kernel's padded weight row is zero
  there and no later tile matches it, and the reference's scatter drops an update that lands outside the histogram.

  Two facts about sums over the extended reals are proved here.  (1) A sum of "indicator times value" over a range picks
  the one matching term (or nothing).  (2) A sum of non-negative extended reals distributes over a product on its right:
  the extended reals are no semiring, but addition of non-negative terms does distribute.
-/
import Mathlib.Data.EReal.Operations
import Mathlib.Algebra.BigOperators.Fin
import Mathlib.Algebra.BigOperators.Intervals
import Idealize.ShloMosaic.Lib.ValueIdx

noncomputable section

namespace Cert.TokenSum

open Idealize.ShloMosaic Idealize.ShloMosaic.ValueIdx

/-- The indicator of a decidable proposition as an extended real. -/
def ind (p : Prop) [Decidable p] : EReal := if p then 1 else 0

theorem ind_nonneg (p : Prop) [Decidable p] : 0 ≤ ind p := by
  unfold ind; split <;> simp

theorem ind_mul (p : Prop) [Decidable p] (x : EReal) : ind p * x = if p then x else 0 := by
  unfold ind; split <;> simp

theorem ind_congr {p q : Prop} [Decidable p] [Decidable q] (h : p ↔ q) : ind p = ind q := by
  unfold ind
  by_cases hp : p
  · rw [if_pos hp, if_pos (h.1 hp)]
  · rw [if_neg hp, if_neg (fun hq => hp (h.2 hq))]

/-- Indicator-weighted sum over a range: the matching term, if the key is in the range. -/
theorem sum_range_ind_mul (n t : ℕ) (g : ℕ → EReal) :
    ∑ j ∈ Finset.range n, ind (t = j) * g j = if t < n then g t else 0 := by
  simp only [ind_mul]
  rw [Finset.sum_ite_eq (Finset.range n) t g]
  simp only [Finset.mem_range]

/-- The same sum cut into tiles of 128 lanes: tile `v` holds the keys `128·v … 128·v + 127`. -/
theorem sum_tiles_ind_mul (nt t : ℕ) (g : ℕ → EReal) :
    ∑ v ∈ Finset.range nt, ∑ l : Fin 128, ind (t = v * 128 + l.val) * g (v * 128 + l.val)
      = if t < nt * 128 then g t else 0 := by
  simp only [ind_mul]
  by_cases ht : t < nt * 128
  · rw [if_pos ht]
    have hv : t / 128 ∈ Finset.range nt := Finset.mem_range.2 (by omega)
    rw [Finset.sum_eq_single_of_mem (t / 128) hv]
    · rw [Finset.sum_eq_single_of_mem (⟨t % 128, Nat.mod_lt _ (by decide)⟩ : Fin 128) (Finset.mem_univ _)]
      · have e : t = t / 128 * 128 + t % 128 := by omega
        rw [if_pos e, ← e]
      · intro l _ hl
        rw [if_neg]
        intro e
        apply hl
        apply Fin.ext
        show l.val = t % 128
        omega
    · intro v _ hvne
      apply Finset.sum_eq_zero
      intro l _
      rw [if_neg]
      intro e
      apply hvne
      have := l.isLt
      omega
  · rw [if_neg ht]
    apply Finset.sum_eq_zero
    intro v hv
    apply Finset.sum_eq_zero
    intro l _
    rw [if_neg]
    intro e
    have := Finset.mem_range.1 hv
    have := l.isLt
    omega

/-- A finite sum of non-negative extended reals, times `x`, is the sum of the products. -/
theorem sum_nonneg_mul {ι : Type*} (S : Finset ι) (c : ι → EReal) (hc : ∀ i ∈ S, 0 ≤ c i) (x : EReal) :
    (∑ i ∈ S, c i) * x = ∑ i ∈ S, c i * x := by
  classical
  induction S using Finset.induction_on with
  | empty => simp
  | insert a S ha ih =>
    rw [Finset.sum_insert ha, Finset.sum_insert ha,
      EReal.right_distrib_of_nonneg (hc a (Finset.mem_insert_self a S))
        (Finset.sum_nonneg fun i hi => hc i (Finset.mem_insert_of_mem hi)),
      ih fun i hi => hc i (Finset.mem_insert_of_mem hi)]

/-! ## The specification -/

/-- The weight of token id `t`: the weight row's entry when `t` is a vocabulary id, else nothing. -/
def tokWeight (w : (⟨2, ![1, 50000]⟩ : Shape).Idx → EReal) (t : ℕ) : EReal :=
  if h : t < 50000 then w (ix2 (0 : Fin 1) ⟨t, h⟩) else 0

/-- The score of every phrase: the sum of its 200 tokens' weights, plus the bias. -/
def phraseScore (text : (⟨2, ![200, 2048]⟩ : Shape).Idx → BitVec 32) (w : (⟨2, ![1, 50000]⟩ : Shape).Idx → EReal)
    (bias : (⟨1, ![1]⟩ : Shape).Idx → EReal) : (⟨2, ![2048, 1]⟩ : Shape).Idx → EReal :=
  fun i => (∑ s : Fin 200, tokWeight w (text (ix2 s (i 0))).toNat) + bias (ix1 (0 : Fin 1))

end Cert.TokenSum

end
-- ==== Proof.TilePayload.lean ====
/-
  One grid step's arithmetic, read at an index of the extended reals.

  A step holds a block of 128 phrases (200 tokens each) and one tile of 128 vocabulary ids with their weights. It compares
  every token with every id of the tile, turns the comparison into 1 or 0, multiplies by the id's weight, sums over the
  tile's lanes and then over the phrase's tokens, and adds the result to the running column of 128 scores. So at phrase
  row r the step adds  ∑ over tokens s, ∑ over lanes l, [token(s, r) = base + l] · weight(l).
  The first step starts the column from zero; the last step also adds the bias.
-/
import proofs.«425267_j455266533601_3_alg».proof.Proof.Gen.KernelIdeal.Skeleton
import proofs.«425267_j455266533601_3_alg».proof.Proof.TokenSum
import Idealize.ShloMosaic.Lib.Pipeline.Value
import Idealize.ShloMosaic.Lib.ValueIdx
import Idealize.ShloMosaic.Lib.StableHlo.Predicate
import Idealize.ShloMosaic.PureOps.Ideal.Laws

noncomputable section
namespace Cert.TilePayload
open Cert.KernelIdeal Cert.KernelIdeal.Gen Idealize.ShloMosaic Idealize.ShloMosaic.ValueIdx Cert.TokenSum

/-- A lane sum from the zero word, at the ideal values, is the sum over the summed axis's coordinates. -/
theorem laneSum {s t : Shape} {a : Fin s.rank} (src : FVec Ideal s .f32) (h : s.Reduces [a] t)
    (hφ : FKind.Formats .f32) (hacc : (0#32 : BitVec 32) = 0#32) (j : t.Idx) :
    multiReduction .add [a] t src 0#32 h hφ hacc j = ∑ k : Fin (s.size a), src (h.lift j k) :=
  Ideal.multiReduction_add_single src 0#32 h hφ hacc j

/-- The one-hot entry: a compared bit, widened and converted, is the indicator of the equality. -/
theorem onehot (a b : BitVec 32) :
    FloatOps.sitofp (F := Ideal) .f32 ((IntOp.cmpi .eq a b).setWidth 32) = ind (a = b) := by
  unfold ind
  by_cases h : a = b
  · rw [if_pos h, StableHlo.Predicate.cmpi_eq_iff.2 h]
    show ((((1#1 : BitVec 1).setWidth 32).toInt : ℝ) : EReal) = 1
    norm_num
  · rw [if_neg h, eq_zero_of_ne_one (fun e => h (StableHlo.Predicate.cmpi_eq_iff.1 e))]
    show ((((0#1 : BitVec 1).setWidth 32).toInt : ℝ) : EReal) = 0
    norm_num

/-- Summing lanes of the [200,128,128] product: the source index over (s, r) with lane l is (s, r, l). -/
theorem lift_lane (h : S200x128x128.Reduces [2] S200x128) (s : Fin 200) (r : Fin 128) (l : Fin 128) :
    h.lift (ix2 s r) l = ix3 s r l :=
  funext fun c => Fin.ext (match c with | ⟨0, _⟩ => rfl | ⟨1, _⟩ => rfl | ⟨2, _⟩ => rfl)

/-- Summing tokens of the [200,128,1] column: the source index over (r, 0) with token s is (s, r, 0). -/
theorem lift_token (h : S200x128x1.Reduces [0] S128x1) (r : Fin 128) (s : Fin 200) :
    h.lift (ix2 r (0 : Fin 1)) s = ix3 s r (0 : Fin 1) :=
  funext fun c => Fin.ext (match c with | ⟨0, _⟩ => rfl | ⟨1, _⟩ => rfl | ⟨2, _⟩ => rfl)

/-- The sum over a phrase's tokens of the [200,128,1] column, at phrase row r. -/
theorem sumTokens (src : FVec Ideal S200x128x1 .f32) (h : S200x128x1.Reduces [0] S128x1)
    (hφ : FKind.Formats .f32) (hacc : (0#32 : BitVec 32) = 0#32) (r : Fin 128) :
    multiReduction .add [0] S128x1 src 0#32 h hφ hacc (ix2 r (0 : Fin 1)) = ∑ s : Fin 200, src (ix3 s r (0 : Fin 1)) :=
  (laneSum src h hφ hacc _).trans (Finset.sum_congr rfl fun s _ => congrArg src (lift_token h r s))

/-- The sum over a tile's lanes of the [200,128,128] product, at token s of phrase row r. -/
theorem sumLanes (src : FVec Ideal S200x128x128 .f32) (h : S200x128x128.Reduces [2] S200x128)
    (hφ : FKind.Formats .f32) (hacc : (0#32 : BitVec 32) = 0#32) (s : Fin 200) (r : Fin 128) :
    multiReduction .add [2] S200x128 src 0#32 h hφ hacc (ix2 s r) = ∑ l : Fin 128, src (ix3 s r l) :=
  (laneSum src h hφ hacc _).trans (Finset.sum_congr rfl fun l _ => congrArg src (lift_lane h s r l))

/-- The token block, given a trailing unit axis and broadcast along the lanes, reads the token of (s, r). -/
theorem tokens_at (x0 : S200x128.Idx → BitVec 32) (h1 : S200x128.ShapeCasts S200x128x1)
    (h2 : S200x128x1.Broadcasts S200x128x128) (s : Fin 200) (r : Fin 128) (l : Fin 128) :
    broadcastTo S200x128x128 (shapeCast S200x128x1 x0 h1) h2 (ix3 s r l) = x0 (ix2 s r) := by
  refine (broadcastTo_apply _ h2 (ix3 s r l) (ix3 s r (0 : Fin 1)) (fun a => ?_)).trans ?_
  · match a with
    | ⟨0, _⟩ => rfl
    | ⟨1, _⟩ => rfl
    | ⟨2, _⟩ => rfl
  · refine shapeCast_apply x0 h1 (ix3 s r (0 : Fin 1)) (ix2 s r) ?_
    rw [Shape.rowMajor_val_two, Shape.rowMajor_val_three]
    show s.val * 128 + r.val = (s.val * 128 + r.val) * 1 + 0
    omega

/-- The tile's vocabulary ids, broadcast over tokens and phrases, read lane l's id: l plus the tile's base. -/
theorem ids_at (base : BitVec 32) (hi : S1x1x128.Iotas .tc 32 [2]) (h2 : S1x1x128.Broadcasts S200x128x128)
    (s : Fin 200) (r : Fin 128) (l : Fin 128) :
    broadcastTo S200x128x128 (addi (iota .tc S1x1x128 32 [2] hi) (broadcast S1x1x128 base)) h2 (ix3 s r l)
      = BitVec.ofNat 32 l.val + base := by
  refine (broadcastTo_apply _ h2 (ix3 s r l) (ix3 (0 : Fin 1) (0 : Fin 1) l) (fun a => ?_)).trans ?_
  · match a with
    | ⟨0, _⟩ => rfl
    | ⟨1, _⟩ => rfl
    | ⟨2, _⟩ => rfl
  · show IntOp.addi (iota .tc S1x1x128 32 [2] hi (ix3 (0 : Fin 1) (0 : Fin 1) l)) base = _
    rw [iota_single_apply]
    rfl

/-- The weight tile, given leading unit axes and broadcast over tokens and phrases, reads lane l's weight. -/
theorem weights_at (x1 : S1x128.Idx → EReal) (h0 : S1x128.ShapeCasts S1x128) (h1 : S1x128.ShapeCasts S1x1x128)
    (h2 : S1x1x128.Broadcasts S200x128x128) (s : Fin 200) (r : Fin 128) (l : Fin 128) :
    broadcastTo S200x128x128 (shapeCast S1x1x128 (shapeCast S1x128 x1 h0) h1) h2 (ix3 s r l)
      = x1 (ix2 (0 : Fin 1) l) := by
  refine (broadcastTo_apply _ h2 (ix3 s r l) (ix3 (0 : Fin 1) (0 : Fin 1) l) (fun a => ?_)).trans ?_
  · match a with
    | ⟨0, _⟩ => rfl
    | ⟨1, _⟩ => rfl
    | ⟨2, _⟩ => rfl
  · rw [shapeCast_self]
    refine shapeCast_apply x1 h1 (ix3 (0 : Fin 1) (0 : Fin 1) l) (ix2 (0 : Fin 1) l) ?_
    rw [Shape.rowMajor_val_two, Shape.rowMajor_val_three]
    show 0 * 128 + l.val = (0 * 1 + 0) * 128 + l.val
    omega

/-- ONE TILE'S CONTRIBUTION. At phrase row r of the block the tile adds, to what the column held, the sum over the
    phrase's 200 tokens and the tile's 128 lanes of [token = lane's vocabulary id] times the lane's weight. -/
theorem pay2_apply (i : grid0.Coords) (x0 : Vec Ideal S200x128 .i32) (x1 : Vec Ideal S1x128 .f32)
    (acc : Vec Ideal S128x1 .f32) (r : Fin 128) :
    k0_pay2 (F := Ideal) i x0 x1 acc (ix2 r (0 : Fin 1))
      = acc (ix2 r (0 : Fin 1)) + ∑ s : Fin 200, ∑ l : Fin 128,
          ind (x0 (ix2 s r) = BitVec.ofNat 32 l.val + Scalar.muli (BitVec.ofNat 32 (i 1).val) 128#32) * x1 (ix2 (0 : Fin 1) l) := by
  unfold k0_pay2
  dsimp only
  rw [addf_apply, shapeCast_self]
  congr 1
  refine (sumTokens _ _ _ _ r).trans ?_
  refine Finset.sum_congr rfl fun s _ => ?_
  refine (shapeCast_apply _ _ (ix3 s r (0 : Fin 1)) (ix2 s r) ?_).trans ?_
  · rw [Shape.rowMajor_val_two, Shape.rowMajor_val_three]
    show s.val * 128 + r.val = (s.val * 128 + r.val) * 1 + 0
    omega
  refine (sumLanes _ _ _ _ s r).trans ?_
  refine Finset.sum_congr rfl fun l _ => ?_
  show FloatOps.sitofp (F := Ideal) .f32 ((IntOp.cmpi .eq _ _).setWidth 32) * _ = _
  rw [onehot, tokens_at, ids_at, weights_at]

/-- The column before the first tile: zero. -/
theorem pay1_apply (j : S128x1.Idx) : k0_pay1 (F := Ideal) j = 0 := by
  show Ideal.ofBits .f32 0x00000000#32 = 0
  exact Ideal.ofBits_zero_f32

/-- The last tile's epilogue adds the bias to every phrase of the block. -/
theorem pay3_apply (a : Vec Ideal S128x1 .f32) (b : Vec Ideal S1x1 .f32) (r : Fin 128) :
    k0_pay3 (F := Ideal) a b (ix2 r (0 : Fin 1)) = a (ix2 r (0 : Fin 1)) + b (ix2 (0 : Fin 1) (0 : Fin 1)) := by
  unfold k0_pay3
  rw [addf_apply, shapeCast_self, shapeCast_self]
  congr 1
  refine broadcastTo_apply _ _ (ix2 r (0 : Fin 1)) (ix2 (0 : Fin 1) (0 : Fin 1)) (fun a => ?_)
  match a with
  | ⟨0, _⟩ => rfl
  | ⟨1, _⟩ => rfl

end Cert.TilePayload
end
-- ==== Proof.KernelFold.lean ====
/-
  The kernel's score column, tile by tile.

  The grid is 16 phrase blocks by 391 vocabulary tiles, the tile index running fastest, so point n works on phrase
  block n / 391 and tile n % 391. Each point's token block is columns 128·(n/391) … of the token array, its weight block
  is entries 128·(n%391) … of the padded weight row, and its bias block is the one bias entry.  Over a phrase block's 391
  consecutive points the output column is started at zero, each point adds its tile's contribution, and the last point
  also adds the bias: the column ends at (sum over the 391 tiles of the tile's contribution) + bias.
-/
import proofs.«425267_j455266533601_3_alg».proof.Proof.Gen.KernelIdeal.Value
import proofs.«425267_j455266533601_3_alg».proof.Proof.TilePayload
import Idealize.ShloMosaic.Lib.KernelVsHost

noncomputable section
namespace Cert.KernelFold
open Cert.KernelIdeal Cert.KernelIdeal.Gen Idealize.ShloMosaic Idealize.ShloMosaic.TcCoe Idealize.SL.Sem
open Idealize.ShloMosaic.ValueIdx Cert.TokenSum Cert.TilePayload

variable (m : (ℓ : Loc nD τ sig) → Buf (Elt Ideal) ℓ)

/-- The three arrays the region finds: the tokens, the weight row padded with zeros to 391 whole tiles, the bias as a
    1×1 matrix. -/
abbrev textArr (c : Dev nD) : S200x2048.Idx → BitVec 32 := V m c main_arg0
abbrev wpadArr (c : Dev nD) : S1x50048.Idx → EReal := V m c main_v0
abbrev biasArr (c : Dev nD) : S1x1.Idx → EReal := V m c main_v1

/-- A grid point's three input blocks. -/
abbrev tokBlk (c : Dev nD) (t : Fin cfg0.N) : Vec Ideal S200x128 .i32 := iblk m c 0 t
abbrev wBlk (c : Dev nD) (t : Fin cfg0.N) : Vec Ideal S1x128 .f32 := iblk m c 1 t
abbrev bBlk (c : Dev nD) (t : Fin cfg0.N) : Vec Ideal S1x1 .f32 := iblk m c 2 t

/-- The grid is 16 phrase blocks by 391 vocabulary tiles, the tile index running fastest: point t is phrase block
    t / 391 at tile t % 391. Decided over the grid's points. -/
theorem point_facts : ∀ t : Fin cfg0.N,
    win0_0.index t (0 : Fin 2) = 0 ∧ win0_0.index t (1 : Fin 2) = t.val / 391
    ∧ win0_1.index t (0 : Fin 2) = 0 ∧ win0_1.index t (1 : Fin 2) = t.val % 391
    ∧ win0_2.index t (0 : Fin 2) = 0 ∧ win0_2.index t (1 : Fin 2) = 0
    ∧ (grid0.coords t 1).val = t.val % 391 :=
  (by decide +kernel : ∀ t : Fin grid0.N, _)

theorem tokBlk_apply (c : Dev nD) (t : Fin cfg0.N) (s : Fin 200) (r : Fin 128)
    (hb : t.val / 391 * 128 + r.val < 2048) :
    tokBlk m c t (ix2 s r) = textArr m c (ix2 s ⟨t.val / 391 * 128 + r.val, hb⟩) := by
  show V m c (Pipeline.arrRef spec0 0) (((cfg0.win 0).blk t).view.emb (ix2 s r)) = V m c main_arg0 _
  refine congrArg (V m c main_arg0) (funext fun a => Fin.ext ?_)
  obtain ⟨e0, e1, -⟩ := point_facts t
  match a with
  | ⟨0, _⟩ => show win0_0.index t (0 : Fin 2) * 200 + 1 * s.val = s.val; omega
  | ⟨1, _⟩ => show win0_0.index t (1 : Fin 2) * 128 + 1 * r.val = t.val / 391 * 128 + r.val; omega

theorem wBlk_apply (c : Dev nD) (t : Fin cfg0.N) (l : Fin 128) (hb : t.val % 391 * 128 + l.val < 50048) :
    wBlk m c t (ix2 (0 : Fin 1) l) = wpadArr m c (ix2 (0 : Fin 1) ⟨t.val % 391 * 128 + l.val, hb⟩) := by
  show V m c (Pipeline.arrRef spec0 1) (((cfg0.win 1).blk t).view.emb (ix2 (0 : Fin 1) l)) = V m c main_v0 _
  refine congrArg (V m c main_v0) (funext fun a => Fin.ext ?_)
  obtain ⟨-, -, e0, e1, -⟩ := point_facts t
  match a with
  | ⟨0, _⟩ => show win0_1.index t (0 : Fin 2) * 1 + 1 * 0 = 0; omega
  | ⟨1, _⟩ => show win0_1.index t (1 : Fin 2) * 128 + 1 * l.val = t.val % 391 * 128 + l.val; omega

theorem bBlk_apply (c : Dev nD) (t : Fin cfg0.N) :
    bBlk m c t (ix2 (0 : Fin 1) (0 : Fin 1)) = biasArr m c (ix2 (0 : Fin 1) (0 : Fin 1)) := by
  show V m c (Pipeline.arrRef spec0 2) (((cfg0.win 2).blk t).view.emb (ix2 (0 : Fin 1) (0 : Fin 1))) = V m c main_v1 _
  refine congrArg (V m c main_v1) (funext fun a => Fin.ext ?_)
  obtain ⟨-, -, -, -, e0, e1, -⟩ := point_facts t
  match a with
  | ⟨0, _⟩ => show win0_2.index t (0 : Fin 2) * 1 + 1 * 0 = 0; omega
  | ⟨1, _⟩ => show win0_2.index t (1 : Fin 2) * 1 + 1 * 0 = 0; omega

/-- Two index pairs with equal second coordinates. -/
theorem ix2_snd_congr {n0 n1 : ℕ} (a : Fin n0) {b b' : ℕ} (hb : b < n1) (hb' : b' < n1) (e : b = b') :
    (ix2 a ⟨b, hb⟩ : (⟨2, ![n0, n1]⟩ : Shape).Idx) = ix2 a ⟨b', hb'⟩ := by subst e; rfl

/-- WHAT POINT n ADDS to phrase row y of its block's score column: over the phrase's tokens and the tile's lanes,
    [token = lane's vocabulary id] times the padded weight row at that id. (A function of every natural n; only points
    of the grid are ever used.) -/
def tileAdd (c : Dev nD) (n : ℕ) : S128x1.Idx → EReal := fun y =>
  ∑ s : Fin 200, ∑ l : Fin 128,
    ind (textArr m c (ix2 s ⟨n / 391 % 16 * 128 + (y 0).val, by
            have h1 : (y 0).val < 128 := (y 0).isLt
            have h2 := Nat.mod_lt (n / 391) (by decide : 0 < 16)
            omega⟩)
          = BitVec.ofNat 32 l.val + Scalar.muli (BitVec.ofNat 32 (n % 391)) 128#32)
      * wpadArr m c (ix2 (0 : Fin 1) ⟨n % 391 * 128 + l.val, by
            have h1 := l.isLt
            have h2 := Nat.mod_lt n (by decide : 0 < 391)
            omega⟩)

/-- The body's accumulation at point n: the column it found plus the point's addend. -/
theorem pay2_at (c : Dev nD) (n : ℕ) (h : n < cfg0.N) (acc : Vec Ideal S128x1 .f32) (y : S128x1.Idx) :
    k0_pay2 (F := Ideal) (grid0.coords ⟨n, h⟩) (iblk m c 0 ⟨n, h⟩) (iblk m c 1 ⟨n, h⟩) acc y
      = acc y + tileAdd m c n y := by
  have hN : n < 6256 := lt_of_lt_of_eq h (show cfg0.N = 6256 from N_0)
  obtain ⟨r, z, rfl⟩ : ∃ (r : Fin 128) (z : Fin 1), y = ix2 r z := ⟨y 0, y 1, eq_ix2 y⟩
  obtain rfl : z = 0 := Subsingleton.elim _ _
  refine (pay2_apply (grid0.coords ⟨n, h⟩) (tokBlk m c ⟨n, h⟩) (wBlk m c ⟨n, h⟩) acc r).trans ?_
  refine congrArg (acc (ix2 r (0 : Fin 1)) + ·) ?_
  unfold tileAdd
  refine Finset.sum_congr rfl fun s _ => Finset.sum_congr rfl fun l _ => ?_
  have hc : (grid0.coords ⟨n, h⟩ 1).val = n % 391 := (point_facts ⟨n, h⟩).2.2.2.2.2.2
  have hl := l.isLt
  have hr := r.isLt
  have e1 : tokBlk m c ⟨n, h⟩ (ix2 s r)
      = textArr m c (ix2 s ⟨n / 391 % 16 * 128 + r.val, by omega⟩) :=
    (tokBlk_apply m c ⟨n, h⟩ s r (by show n / 391 * 128 + r.val < 2048; omega)).trans
      (congrArg (textArr m c) (ix2_snd_congr s _ _ (by show n / 391 * 128 + r.val = n / 391 % 16 * 128 + r.val; omega)))
  have e2 : wBlk m c ⟨n, h⟩ (ix2 (0 : Fin 1) l) = wpadArr m c (ix2 (0 : Fin 1) ⟨n % 391 * 128 + l.val, by omega⟩) :=
    wBlk_apply m c ⟨n, h⟩ l (by show n % 391 * 128 + l.val < 50048; omega)
  rw [hc, e1, e2]

/-- THE FOLD OF ONE PHRASE BLOCK'S RUN: after its 391 tiles the score column holds the sum of the tiles' addends plus
    the bias. -/
theorem fold_eq (c : Dev nD) (q : ℕ) (hq : q < 16) (h : 391 * q + 390 < cfg0.N) (y : S128x1.Idx) :
    Pipeline.accAt (Cert.KernelIdeal.Value.reset3 m c) (Cert.KernelIdeal.Value.step3 m c) (391 * q) 390 h y
      = (∑ v ∈ Finset.range 391, tileAdd m c (391 * q + v) y) + biasArr m c (ix2 (0 : Fin 1) (0 : Fin 1)) := by
  have hN : cfg0.N = 6256 := N_0
  have h389 : 391 * q + 389 < cfg0.N := by omega
  have hstep : Pipeline.accAt (Cert.KernelIdeal.Value.reset3 m c) (Cert.KernelIdeal.Value.step3 m c) (391 * q) 390 h
      = Cert.KernelIdeal.Value.step3 m c (391 * q + 390) h
          (Pipeline.accAt (Cert.KernelIdeal.Value.reset3 m c) (Cert.KernelIdeal.Value.step3 m c) (391 * q) 389 h389) := rfl
  have hlast : ∀ A : Vec Ideal S128x1 .f32, Cert.KernelIdeal.Value.step3 m c (391 * q + 390) h A
      = k0_pay3 (k0_pay2 (grid0.coords ⟨391 * q + 390, h⟩) (iblk m c 0 ⟨391 * q + 390, h⟩) (iblk m c 1 ⟨391 * q + 390, h⟩) A)
          (iblk m c 2 ⟨391 * q + 390, h⟩) := by
    intro A
    unfold Cert.KernelIdeal.Value.step3
    rw [if_neg (by omega), if_pos (by omega)]
  obtain ⟨r, z, rfl⟩ : ∃ (r : Fin 128) (z : Fin 1), y = ix2 r z := ⟨y 0, y 1, eq_ix2 y⟩
  obtain rfl : z = 0 := Subsingleton.elim _ _
  rw [hstep, hlast, pay3_apply, pay2_at m c (391 * q + 390) h, Finset.sum_range_succ _ 390]
  refine congrArg₂ (· + ·) ?_ (bBlk_apply m c ⟨391 * q + 390, h⟩)
  refine congrArg (· + tileAdd m c (391 * q + 390) (ix2 r (0 : Fin 1))) ?_
  refine (Pipeline.accAt_add_apply (ι := S128x1.Idx) (β := EReal) (Cert.KernelIdeal.Value.reset3 m c)
    (Cert.KernelIdeal.Value.step3 m c) (fun _ => 0) (tileAdd m c) (391 * q) 389 ?_ ?_ 389 le_rfl h389
    (ix2 r (0 : Fin 1))).trans (zero_add _)
  · intro hb i
    unfold Cert.KernelIdeal.Value.reset3
    rw [pay2_at m c (391 * q) hb, pay1_apply]
  · intro n hn acc i h1 h2
    unfold Cert.KernelIdeal.Value.step3
    rw [if_pos (by omega)]
    exact pay2_at m c n hn acc i

end Cert.KernelFold
end
-- ==== Proof.KernelValue.lean ====
/-
  The kernel's value: the phrase scores.

  Three things close the kernel's side. (1) What the region finds: the tokens as given, the weight row padded with zeros
  from 50000 to 50048 entries (391 tiles of 128), the bias as a 1×1 matrix; so the padded row at id n is the weight of
  token n, zero beyond the vocabulary. (2) A tile compares words: token = lane l's id in tile v, as 32-bit words, says the
  token's value is 128·v + l, since all ids are far below 2³². (3) Summed over all 391 tiles and 128 lanes, the
  indicators pick the token's own weight once (or nothing, for a token of value 50048 or more, whose weight is zero
  anyway). Exchanging the sum over tiles with the sum over the phrase's tokens gives the score. No assumption on the token
  ids is needed on this side.
-/
import proofs.«425267_j455266533601_3_alg».proof.Proof.KernelFold
import Idealize.ShloMosaic.Lib.StableHlo.Run
import Idealize.ShloMosaic.Lib.KernelVsHost

noncomputable section
namespace Cert.KernelValue
open Cert.KernelIdeal Cert.KernelIdeal.Gen Idealize.ShloMosaic Idealize.ShloMosaic.TcCoe Idealize.SL.Sem
open Idealize.ShloMosaic.ValueIdx Cert.TokenSum Cert.TilePayload Cert.KernelFold

variable (m : (ℓ : Loc nD τ sig) → Buf (Elt Ideal) ℓ)

/-- A token word equals lane l's vocabulary id in tile v exactly when its value is 128·v + l. -/
theorem tok_eq_iff (t : BitVec 32) (v l : ℕ) (hv : v < 391) (hl : l < 128) :
    t = BitVec.ofNat 32 l + Scalar.muli (BitVec.ofNat 32 v) 128#32 ↔ t.toNat = v * 128 + l := by
  have e : BitVec.ofNat 32 l + Scalar.muli (BitVec.ofNat 32 v) 128#32 = BitVec.ofNat 32 (v * 128 + l) := by
    apply BitVec.eq_of_toNat_eq
    show (BitVec.ofNat 32 l + BitVec.ofNat 32 v * 128#32).toNat = _
    simp only [BitVec.toNat_add, BitVec.toNat_mul, BitVec.toNat_ofNat]
    omega
  rw [e]
  constructor
  · intro h
    rw [h, BitVec.toNat_ofNat]
    omega
  · intro h
    apply BitVec.eq_of_toNat_eq
    rw [h, BitVec.toNat_ofNat]
    omega

/-- The token array the region finds is the argument. -/
theorem textArr_eq (c : Dev nD) : textArr m c = m ((c : Thread nD τ).loc main_arg0) := V_main_arg0 m c

/-- The weight row the region finds is the argument padded on the right with zeros (the integer 0, converted). -/
theorem wpadArr_eq (c : Dev nD) :
    wpadArr m c = pad S1x50048 ![0, 0] ![0, 48] ![0, 0] (m ((c : Thread nD τ).loc main_arg1))
      (sitofp (F := Ideal) .f32 (constantI S_ 32 0#32)) pads_S1x50000_S1x50048_000_0480 h_S_ := by
  dsimp only [wpadArr, V]
  simp only [hostOps0, hostOps0_1, hostOps0_2, List.flatten_cons, List.flatten_nil, List.append_nil, List.cons_append,
    List.nil_append]
  after_results
  rfl

/-- The bias the region finds is the argument viewed as a 1×1 matrix. -/
theorem biasArr_eq (c : Dev nD) :
    biasArr m c = shapeCast S1x1 (m ((c : Thread nD τ).loc main_arg2)) shapeCasts_S1_S1x1 := by
  dsimp only [biasArr, V]
  simp only [hostOps0, hostOps0_1, hostOps0_2, List.flatten_cons, List.flatten_nil, List.append_nil, List.cons_append,
    List.nil_append]
  after_results
  rfl

/-- The padded weight row at vocabulary id n is the weight of token n: the argument's entry below 50000, zero in the
    padding. -/
theorem wpad_at (c : Dev nD) (n : ℕ) (hn : n < 50048) :
    wpadArr m c (ix2 (0 : Fin 1) ⟨n, hn⟩) = tokWeight (m ((c : Thread nD τ).loc main_arg1)) n := by
  rw [wpadArr_eq]
  unfold tokWeight
  by_cases h : n < 50000
  · rw [dif_pos h]
    refine pad_apply_of_inside _ _ _ _ _ _ _ (ix2 (0 : Fin 1) ⟨n, hn⟩) (ix2 (0 : Fin 1) ⟨n, h⟩) (fun a => ?_)
    match a with
    | ⟨0, _⟩ => rfl
    | ⟨1, _⟩ => show n = 0 + n * (0 + 1); omega
  · rw [dif_neg h]
    refine (pad_apply_of_not_inside _ _ _ _ _ _ _ (ix2 (0 : Fin 1) ⟨n, hn⟩) (1 : Fin 2) ?_).trans ?_
    · rintro ⟨-, -, h3⟩
      apply h
      have h4 : (n - 0) / (0 + 1) < 50000 := h3
      omega
    · show (((0#32 : BitVec 32).toInt : ℝ) : EReal) = 0
      norm_num

/-- The 1×1 bias the region finds is the argument's one entry. -/
theorem bias_at (c : Dev nD) :
    biasArr m c (ix2 (0 : Fin 1) (0 : Fin 1)) = m ((c : Thread nD τ).loc main_arg2) (ix1 (0 : Fin 1)) := by
  rw [biasArr_eq]
  refine shapeCast_apply _ _ (ix2 (0 : Fin 1) (0 : Fin 1)) (ix1 (0 : Fin 1)) ?_
  rw [Shape.rowMajor_val_one, Shape.rowMajor_val_two]
  rfl

/-- TILE v OF PHRASE BLOCK q, in arithmetic: at phrase row r it adds, over the phrase's tokens and the tile's lanes,
    [token's value = 128·v + l] times the weight of token 128·v + l. -/
theorem tileAdd_run (c : Dev nD) (q : ℕ) (hq : q < 16) (v : ℕ) (hv : v < 391) (r : Fin 128) :
    tileAdd m c (391 * q + v) (ix2 r (0 : Fin 1))
      = ∑ s : Fin 200, ∑ l : Fin 128,
          ind ((m ((c : Thread nD τ).loc main_arg0) (ix2 s ⟨q * 128 + r.val, by have := r.isLt; omega⟩)).toNat = v * 128 + l.val)
            * tokWeight (m ((c : Thread nD τ).loc main_arg1)) (v * 128 + l.val) := by
  unfold tileAdd
  refine Finset.sum_congr rfl fun s _ => Finset.sum_congr rfl fun l _ => ?_
  have hl := l.isLt
  have hr := r.isLt
  have e1 : textArr m c (ix2 s ⟨(391 * q + v) / 391 % 16 * 128 + r.val, by omega⟩)
      = m ((c : Thread nD τ).loc main_arg0) (ix2 s ⟨q * 128 + r.val, by omega⟩) :=
    (congrArg (textArr m c) (ix2_snd_congr s _ _ (by omega))).trans (congrFun (textArr_eq m c) _)
  have e2 : wpadArr m c (ix2 (0 : Fin 1) ⟨(391 * q + v) % 391 * 128 + l.val, by omega⟩)
      = tokWeight (m ((c : Thread nD τ).loc main_arg1)) (v * 128 + l.val) :=
    (wpad_at m c _ _).trans (congrArg (tokWeight _) (by omega))
  have e3 : (391 * q + v) % 391 = v := by omega
  show ind (textArr m c (ix2 s ⟨(391 * q + v) / 391 % 16 * 128 + r.val, _⟩) = _) * _ = _
  rw [e1, e2, e3]
  exact congrArg (· * _) (ind_congr (tok_eq_iff _ v l.val hv hl))

/-- Over all 391 tiles, a token picks out exactly its own weight: the one lane of the one tile whose vocabulary id is the
    token's value (no lane at all when the value is 50048 or more, and then the token's weight is zero anyway). -/
theorem tiles_collapse (w : (⟨2, ![1, 50000]⟩ : Shape).Idx → EReal) (T : BitVec 32) :
    ∑ v ∈ Finset.range 391, ∑ l : Fin 128, ind (T.toNat = v * 128 + l.val) * tokWeight w (v * 128 + l.val)
      = tokWeight w T.toNat := by
  rw [sum_tiles_ind_mul 391 _ (tokWeight w)]
  split
  · rfl
  · next h =>
    unfold tokWeight
    rw [dif_neg (by omega)]

/-- THE KERNEL'S VALUE: the output array ends at the phrase scores of the argument arrays. -/
theorem G3_eq (c : Dev nD) :
    Cert.KernelIdeal.Value.G3 m c
      = phraseScore (m ((c : Thread nD τ).loc main_arg0)) (m ((c : Thread nD τ).loc main_arg1)) (m ((c : Thread nD τ).loc main_arg2)) := by
  funext i
  obtain ⟨b, z, rfl⟩ : ∃ (b : Fin 2048) (z : Fin 1), i = ix2 b z := ⟨i 0, i 1, eq_ix2 i⟩
  obtain rfl : z = 0 := Subsingleton.elim _ _
  have hb := b.isLt
  have hN : cfg0.N = 6256 := N_0
  have hrun : Cert.KernelIdeal.Value.run3Of (ix2 b (0 : Fin 1)) = b.val / 128 := by
    show 1 * (b.val / 128 - 0) + 1 * (0 / 1 - 0) = _
    omega
  have hloc : Cert.KernelIdeal.Value.loc3Of (ix2 b (0 : Fin 1)) = ix2 (⟨b.val % 128, Nat.mod_lt _ (by decide)⟩ : Fin 128) (0 : Fin 1) :=
    funext fun a => Fin.ext (match a with | ⟨0, _⟩ => rfl | ⟨1, _⟩ => rfl)
  have key : ∀ (B : ℕ) (hB : B + 390 < cfg0.N), B = 391 * (b.val / 128) →
      Pipeline.accAt (Cert.KernelIdeal.Value.reset3 m c) (Cert.KernelIdeal.Value.step3 m c) B 390 hB
          (ix2 (⟨b.val % 128, Nat.mod_lt _ (by decide)⟩ : Fin 128) (0 : Fin 1))
        = phraseScore (m ((c : Thread nD τ).loc main_arg0)) (m ((c : Thread nD τ).loc main_arg1))
            (m ((c : Thread nD τ).loc main_arg2)) (ix2 b (0 : Fin 1)) := by
    intro B hB e
    subst e
    rw [fold_eq m c (b.val / 128) (by omega) hB, bias_at]
    show _ + _ = (∑ s : Fin 200, tokWeight (m ((c : Thread nD τ).loc main_arg1))
        (m ((c : Thread nD τ).loc main_arg0) (ix2 s b)).toNat) + m ((c : Thread nD τ).loc main_arg2) (ix1 (0 : Fin 1))
    refine congrArg (· + _) ?_
    rw [Finset.sum_congr rfl fun v hv => tileAdd_run m c (b.val / 128) (by omega) v (Finset.mem_range.1 hv) _]
    rw [Finset.sum_comm]
    refine Finset.sum_congr rfl fun s _ => ?_
    have eb : (ix2 s (⟨b.val / 128 * 128 + b.val % 128, by omega⟩ : Fin 2048) : S200x2048.Idx) = ix2 s b :=
      congrArg (ix2 s) (Fin.ext (by show b.val / 128 * 128 + b.val % 128 = b.val; omega))
    have hT : m ((c : Thread nD τ).loc main_arg0) (ix2 s (⟨b.val / 128 * 128 + b.val % 128, by omega⟩ : Fin 2048))
        = m ((c : Thread nD τ).loc main_arg0) (ix2 s b) := congrArg (m ((c : Thread nD τ).loc main_arg0)) eb
    refine Eq.trans ?_ (tiles_collapse (m ((c : Thread nD τ).loc main_arg1)) (m ((c : Thread nD τ).loc main_arg0) (ix2 s b)))
    exact congrArg (fun T : BitVec 32 => ∑ v ∈ Finset.range 391, ∑ l : Fin 128,
      ind (T.toNat = v * 128 + l.val) * tokWeight (m ((c : Thread nD τ).loc main_arg1)) (v * 128 + l.val)) hT
  unfold Cert.KernelIdeal.Value.G3
  rw [dif_pos (by rw [hrun]; omega), hloc]
  exact key _ _ (by rw [hrun])

end Cert.KernelValue
end
-- ==== Proof.ScatterLanding.lean ====
/-
  Where a scatter's update lands. StableHLO adds, on every operand axis, the start index (read signed off the index
  array) and the update's window coordinate; the update is applied when that sum is inside the operand on every axis and
  dropped otherwise. So update `j` lands on operand index `i` exactly when the sum IS `i`'s coordinate on every axis.
-/
import Idealize.ShloMosaic.PureOps

namespace Cert.ScatterLanding

open Idealize.ShloMosaic

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro e a
      have hv : (d.start j idx a + (d.window j a : Int)).toNat = (i a).val := congrArg Fin.val (congrFun e a)
      have := (h a).1
      omega
    · intro e
      funext a
      apply Fin.ext
      show (d.start j idx a + (d.window j a : Int)).toNat = (i a).val
      have := e a
      omega
  · next h =>
    constructor
    · intro e
      cases e
    · intro e
      exfalso
      apply h
      intro a
      have := e a
      have := (i a).isLt
      omega

end Cert.ScatterLanding
-- ==== Proof.ReferenceValue.lean ====
/-
  The reference's value: the phrase scores, for token ids that are not negative.

  The reference builds a histogram — for every (token position s, phrase b) it adds 1.0 at entry (b, token(s, b)) of a zero
  [2048, 50000] array — and multiplies it by the weight column, then adds the bias. Before scattering it wraps a negative
  index by adding the axis length; a token id at least 0 is left alone, and that is where the domain of the ids enters.
  An update whose token is 50000 or more lands outside the histogram and is dropped.
  Entry (b, k) is therefore the number of tokens of phrase b equal to k. A count is a sum of non-negative terms, so its
  product with weight k distributes over the count even on the extended reals; exchanging the sum over k with the sum
  over updates, update (s, b') gives the weight of its token to phrase b' and nothing to any other phrase.
-/
import proofs.«425267_j455266533601_3_alg».proof.Proof.Gen.ReferenceIdeal.Read
import proofs.«425267_j455266533601_3_alg».proof.Proof.TokenSum
import proofs.«425267_j455266533601_3_alg».proof.Proof.ScatterLanding
import Idealize.ShloMosaic.Lib.StableHlo.Predicate
import Idealize.ShloMosaic.Lib.IdealHost

noncomputable section
namespace Cert.ReferenceValue
open Cert.ReferenceIdeal Cert.ReferenceIdeal.Gen Cert.ReferenceIdeal.Read Idealize.ShloMosaic
open Idealize.ShloMosaic.ValueIdx Cert.TokenSum

/-- The histogram scatter's dimension record: each update (s, b) carries a two-component index (row, column) read off
    the index array's last axis; there is no window. -/
abbrev dScatter : ScatterDims S2048x50000 S200x2048x2 S200x2048 := scatter_S2048x50000_S200x2048x2_S200x2048_n_01_01_2

theorem siIdx_eq (j : S200x2048.Idx) (c : Fin dScatter.scatterDimsToOperandDims.length) :
    dScatter.siIdx j c = ix3 (j 0) (j 1) (⟨c.val, c.isLt⟩ : Fin 2) := by
  funext b
  apply Fin.ext
  match b with
  | ⟨0, _⟩ => rfl
  | ⟨1, _⟩ => rfl
  | ⟨2, _⟩ => rfl

theorem start_row (j : S200x2048.Idx) (idx : IVec S200x2048x2 32) :
    dScatter.start j idx (0 : Fin 2) = (idx (ix3 (j 0) (j 1) (0 : Fin 2))).toInt := by
  unfold ScatterDims.start
  rw [dif_pos (show (0 : Fin S2048x50000.rank) ∈ dScatter.scatterDimsToOperandDims by decide), siIdx_eq]
  rfl

theorem start_col (j : S200x2048.Idx) (idx : IVec S200x2048x2 32) :
    dScatter.start j idx (1 : Fin 2) = (idx (ix3 (j 0) (j 1) (1 : Fin 2))).toInt := by
  unfold ScatterDims.start
  rw [dif_pos (show (1 : Fin S2048x50000.rank) ∈ dScatter.scatterDimsToOperandDims by decide), siIdx_eq]
  rfl

theorem window_zero (j : S200x2048.Idx) (a : Fin 2) : dScatter.window j a = 0 := by
  have h : ∀ a : Fin S2048x50000.rank, a ∉ dScatter.sKept := by decide
  unfold ScatterDims.window
  rw [dif_neg (h a)]

/-- WHERE UPDATE (s, b) LANDS: on histogram entry i exactly when the index array's row component at (s, b) is i's row
    and its column component is i's column, both read signed. -/
theorem lands_iff (j : S200x2048.Idx) (idx : IVec S200x2048x2 32) (i : S2048x50000.Idx) :
    dScatter.resultIdx? j idx = some i ↔
      (idx (ix3 (j 0) (j 1) (0 : Fin 2))).toInt = ((i 0).val : Int) ∧ (idx (ix3 (j 0) (j 1) (1 : Fin 2))).toInt = ((i 1).val : Int) := by
  rw [Cert.ScatterLanding.resultIdx?_eq_some_iff]
  constructor
  · intro h
    have h0 := h 0
    have h1 := h 1
    rw [start_row, window_zero] at h0
    rw [start_col, window_zero] at h1
    exact ⟨by simpa using h0, by simpa using h1⟩
  · rintro ⟨h0, h1⟩ a
    match a with
    | ⟨0, _⟩ => show dScatter.start j idx (0 : Fin 2) + (dScatter.window j (0 : Fin 2) : Int) = _; rw [start_row, window_zero]; simpa using h0
    | ⟨1, _⟩ => show dScatter.start j idx (1 : Fin 2) + (dScatter.window j (1 : Fin 2) : Int) = _; rw [start_col, window_zero]; simpa using h1

/-- The index array's row component at (s, b): the phrase number b (an iota along the phrase axis; it is never negative,
    so the reference's wrap of negative indices leaves it alone). -/
theorem idx_row (x0 : S200x2048.Idx → BitVec 32) (s : Fin 200) (b : Fin 2048) :
    val_main_v16 (F := Ideal) x0 (ix3 s b (0 : Fin 2)) = BitVec.ofNat 32 b.val := by
  unfold val_main_v16
  refine (concatenate_pair_apply_left (s₁ := S200x2048x1) (s₂ := S200x2048x1) _ _ _ _ (ix3 s b (0 : Fin 2)) rfl (ix3 s b (0 : Fin 1)) (fun a => ?_)).trans ?_
  · match a with
    | ⟨0, _⟩ => rfl
    | ⟨1, _⟩ => rfl
    | ⟨2, _⟩ => rfl
  · rw [val_main_v14_apply, val_main_v8_apply, val_main_v5_apply, val_main_v2_apply, val_main_v1_apply, val_main_v0_apply,
      val_main_v4_apply, val_main_c_apply]
    have hb : b.val < 2 ^ 31 := by have := b.isLt; omega
    have hnot : ¬IntOp.cmpi .slt (BitVec.ofNat 32 b.val) 0#32 = 1#1 := by
      rw [StableHlo.Predicate.slt_iff_toNat (by simp [BitVec.toNat_ofNat]; omega) (by decide)]
      simp
    show Scalar.select (IntOp.cmpi .slt (BitVec.ofNat 32 b.val) 0#32) _ (BitVec.ofNat 32 b.val) = _
    rw [eq_zero_of_ne_one hnot, select_zero]

/-- The index array's column component at (s, b): the token of (s, b) itself, when it is not negative (the reference
    would add 50000 to a negative one; this is the one place the domain of the token ids is used). -/
theorem idx_col (x0 : S200x2048.Idx → BitVec 32) (s : Fin 200) (b : Fin 2048) (hx : (x0 (ix2 s b)).toNat < 2 ^ 31) :
    val_main_v16 (F := Ideal) x0 (ix3 s b (1 : Fin 2)) = x0 (ix2 s b) := by
  unfold val_main_v16
  refine (concatenate_pair_apply_right (s₁ := S200x2048x1) (s₂ := S200x2048x1) _ _ _ _ (ix3 s b (1 : Fin 2)) rfl rfl
    (ix3 s b (0 : Fin 1)) (fun a ha => ?_) rfl).trans ?_
  · match a with
    | ⟨0, _⟩ => rfl
    | ⟨1, _⟩ => rfl
    | ⟨2, _⟩ => exact absurd rfl ha
  · have e : idx_main_v15 (ix3 s b (0 : Fin 1)) = ix2 s b :=
      funext fun a => match a with | ⟨0, _⟩ => rfl | ⟨1, _⟩ => rfl
    rw [val_main_v15_apply, e, val_main_v13_apply, val_main_v10_apply, val_main_v9_apply, val_main_c_1_apply]
    have hnot : ¬IntOp.cmpi .slt (x0 (ix2 s b)) 0#32 = 1#1 := by
      rw [StableHlo.Predicate.slt_iff_toNat hx (by decide)]
      simp
    show Scalar.select (IntOp.cmpi .slt (x0 (ix2 s b)) 0#32) _ (x0 (ix2 s b)) = _
    rw [eq_zero_of_ne_one hnot, select_zero]

/-- THE HISTOGRAM. Entry (b, k) of the scattered array counts the tokens of phrase b that equal k: the zero array plus
    one for every update landing there, and update (s, b') lands at (b', token(s, b')). -/
theorem hist_apply (x0 : S200x2048.Idx → BitVec 32) (hx : ∀ j, (x0 j).toNat < 2 ^ 31) (b : Fin 2048) (k : Fin 50000) :
    val_main_v18 (F := Ideal) x0 (ix2 b k)
      = ∑ j : S200x2048.Idx, ind ((j 1).val = b.val ∧ (x0 j).toNat = k.val) := by
  unfold val_main_v18
  show Ideal.hostScatterAdd dScatter (val_main_v3 (F := Ideal)) (val_main_v16 (F := Ideal) x0) (val_main_v17 (F := Ideal)) (ix2 b k) = _
  unfold Ideal.hostScatterAdd
  rw [val_main_v3_apply, val_main_cst_apply]
  show Ideal.ofBits .f32 0x00000000#32 + _ = _
  rw [Ideal.ofBits_zero_f32, zero_add, Finset.sum_filter]
  refine Finset.sum_congr rfl fun j _ => ?_
  obtain ⟨s, b', rfl⟩ : ∃ (s : Fin 200) (b' : Fin 2048), j = ix2 s b' := ⟨j 0, j 1, eq_ix2 j⟩
  have h17 : val_main_v17 (F := Ideal) (ix2 s b') = 1 := by
    rw [val_main_v17_apply, val_main_cst_3_apply]
    exact Ideal.ofBits_one_f32
  rw [h17]
  unfold ind
  refine if_congr ?_ rfl rfl
  rw [lands_iff, idx_row, idx_col x0 s b' (hx _)]
  have hb' : b'.val < 2 ^ 31 := by have := b'.isLt; omega
  rw [StableHlo.Predicate.toInt_ofNat_small _ hb', StableHlo.Predicate.toInt_eq_toNat_of_lt (hx (ix2 s b'))]
  show ((b'.val : Int) = (b.val : Int) ∧ ((x0 (ix2 s b')).toNat : Int) = (k.val : Int)) ↔ _
  constructor
  · rintro ⟨h1, h2⟩; exact ⟨by exact_mod_cast h1, by exact_mod_cast h2⟩
  · rintro ⟨h1, h2⟩; exact ⟨by exact_mod_cast h1, by exact_mod_cast h2⟩

/-- THE REFERENCE'S VALUE: histogram times weights plus bias is the phrase scores. Entry (b, k) of the histogram is a
    count, a sum of non-negative terms, so its product with the weight distributes; exchanging the sum over vocabulary
    ids with the sum over updates, each update (s, b') contributes the weight of its token to phrase b' alone. -/
theorem ref_eq (x0 : S200x2048.Idx → BitVec 32) (x1 : S1x50000.Idx → EReal) (x2 : S1.Idx → EReal)
    (hx : ∀ j, (x0 j).toNat < 2 ^ 31) :
    val_main_v23 (F := Ideal) x0 x1 x2 = phraseScore x0 x1 x2 := by
  funext i
  obtain ⟨b, z, rfl⟩ : ∃ (b : Fin 2048) (z : Fin 1), i = ix2 b z := ⟨i 0, i 1, eq_ix2 i⟩
  obtain rfl : z = 0 := Subsingleton.elim _ _
  rw [val_main_v23_apply, val_main_v20_apply, val_main_v22_apply, val_main_v21_apply]
  have hbias : idx_main_v21 (idx_main_v22 (ix2 b (0 : Fin 1))) = ix1 (0 : Fin 1) :=
    funext fun a => match a with | ⟨0, _⟩ => rfl
  rw [hbias]
  show (∑ k : Fin 50000, val_main_v18 (F := Ideal) x0 (lidx_main_v20 (ix2 b (0 : Fin 1)) k)
        * val_main_v19 (F := Ideal) x1 (ridx_main_v20 (ix2 b (0 : Fin 1)) k)) + x2 (ix1 (0 : Fin 1))
      = (∑ s : Fin 200, tokWeight x1 (x0 (ix2 s b)).toNat) + x2 (ix1 (0 : Fin 1))
  refine congrArg (fun z : EReal => z + x2 (ix1 (0 : Fin 1))) ?_
  have hterm : ∀ k : Fin 50000,
      val_main_v18 (F := Ideal) x0 (lidx_main_v20 (ix2 b (0 : Fin 1)) k) * val_main_v19 (F := Ideal) x1 (ridx_main_v20 (ix2 b (0 : Fin 1)) k)
        = ∑ j : S200x2048.Idx, ind ((j 1).val = b.val ∧ (x0 j).toNat = k.val) * x1 (ix2 (0 : Fin 1) k) := by
    intro k
    have el : lidx_main_v20 (ix2 b (0 : Fin 1)) k = ix2 b k :=
      funext fun a => match a with | ⟨0, _⟩ => rfl | ⟨1, _⟩ => rfl
    have er : idx_main_v19 (ridx_main_v20 (ix2 b (0 : Fin 1)) k) = ix2 (0 : Fin 1) k :=
      funext fun a => match a with | ⟨0, _⟩ => rfl | ⟨1, _⟩ => rfl
    rw [el, val_main_v19_apply, er, hist_apply x0 hx b k]
    exact sum_nonneg_mul _ _ (fun j _ => ind_nonneg _) _
  rw [Finset.sum_congr rfl fun k _ => hterm k, Finset.sum_comm, sum_idx2]
  refine Finset.sum_congr rfl fun s _ => ?_
  rw [Finset.sum_eq_single_of_mem b (Finset.mem_univ _)]
  · show ∑ k : Fin 50000, ind (b.val = b.val ∧ (x0 (ix2 s b)).toNat = k.val) * x1 (ix2 (0 : Fin 1) k) = _
    have hk : ∀ k : Fin 50000, ind (b.val = b.val ∧ (x0 (ix2 s b)).toNat = k.val) * x1 (ix2 (0 : Fin 1) k)
        = ind ((x0 (ix2 s b)).toNat = k.val) * tokWeight x1 k.val := by
      intro k
      rw [ind_congr (show (b.val = b.val ∧ (x0 (ix2 s b)).toNat = k.val) ↔ (x0 (ix2 s b)).toNat = k.val from
        ⟨fun h => h.2, fun h => ⟨rfl, h⟩⟩)]
      unfold tokWeight
      rw [dif_pos k.isLt]
    rw [Finset.sum_congr rfl fun k _ => hk k,
      Fin.sum_univ_eq_sum_range (fun n => ind ((x0 (ix2 s b)).toNat = n) * tokWeight x1 n) 50000, sum_range_ind_mul]
    split
    · rfl
    · next h =>
      unfold tokWeight
      rw [dif_neg h]
  · intro b' _ hne
    refine Finset.sum_eq_zero fun k _ => ?_
    show ind (b'.val = b.val ∧ (x0 (ix2 s b')).toNat = k.val) * _ = 0
    rw [ind_mul, if_neg (fun h => hne (Fin.ext h.1))]

end Cert.ReferenceValue
end
-- ==== Proof.Domain.lean ====
/-
  The domain of the token ids, read off the printed precondition. The precondition is a conjunction of three "all entries
  satisfy" tests folded to one bit; the third says  token ≥ 0  as signed 32-bit words for every entry of the token array.
  A signed word that is at least 0 has its top bit clear, so as an unsigned number it is below 2³¹.
-/
import proofs.«425267_j455266533601_3_alg».proof.Pre_finite_inputs
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal

noncomputable section
namespace Cert.Domain
open Idealize.ShloMosaic Cert.Pre_finite_inputs

instance : Subsingleton S_.Idx := ⟨fun a b => funext fun d => d.elim0⟩

/-- THE DOMAIN, read off the precondition: its last conjunct says every token id is at least 0 as a signed word, that is,
    below 2³¹ as an unsigned one. (The finiteness conjuncts are not needed: the two sides agree on all extended reals.) -/
theorem tokens_nonneg [Facts] (x0 : IVec S200x2048 32) (x1 : FVec Ideal S1x50000 .f32) (x2 : FVec Ideal S1 .f32)
    (h : fn (F := Ideal) x0 x1 x2 = fun _ => 1#1) (j : S200x2048.Idx) : (x0 j).toNat < 2 ^ 31 := by
  have h0 := congrFun h ValueIdx.ix0
  dsimp only [fn] at h0
  obtain ⟨-, hall⟩ := IntOp.andi_eq_one.1 h0
  have hj : IntOp.cmpi .sge (x0 j) 0#32 = 1#1 := Host.reduce_andi_all _ _ _ _ _ hall j
  have hle : (0#32 : BitVec 32).toInt ≤ (x0 j).toInt := IntOp.cmpi_sge.1 hj
  have hz : (0#32 : BitVec 32).toInt = 0 := by decide
  rw [hz, BitVec.toInt_eq_toNat_cond] at hle
  have hlt := (x0 j).isLt
  split at hle
  · omega
  · omega

end Cert.Domain
end
-- ==== Proof.lean ====
/-
  Bag-of-words scoring: a one-hot compare-and-reduce kernel against a scatter-add histogram followed by a matrix product.

  Both programs compute, for each of 2048 phrases of 200 tokens,   score(b) = ∑ over tokens s of weight(token(s, b)) + bias,
  a token outside the vocabulary (50000 ids) contributing nothing.
    · The reference counts, per phrase, how often each vocabulary id occurs (a scatter-add of ones into a zero
      [2048, 50000] array) and multiplies the counts by the weight column.
    · The kernel never builds the counts: it walks the vocabulary in 391 tiles of 128 ids (the weight row padded with
      zeros), compares every token of a block of 128 phrases with every id of the tile, and accumulates
      [token = id] · weight(id) into the block's score column; the last tile adds the bias.
  The two agree on the extended reals with no finiteness assumption: only commutativity and associativity of addition are
  used, plus distributivity of a product over a sum of NON-NEGATIVE terms (a count), which holds there.
  They differ on a NEGATIVE token id: the reference wraps it (id + 50000, as array indexing does), the kernel matches no
  tile. The precondition therefore carries the conjunct "every token id is at least 0"; it is used once, on the reference's
  side (Proof/ReferenceValue.lean, `idx_col`). Ids of 50000 and above need no assumption: both sides drop them.

  Modules: TokenSum (the specification and the two sum laws) · ScatterLanding (where a scatter's update lands) ·
  TilePayload (one grid step's arithmetic at an index) · KernelFold (the 391-step fold of a phrase block) · KernelValue
  (the kernel's array is the specification) · ReferenceValue (the reference's is) · Domain (the precondition read).
-/
import proofs.«425267_j455266533601_3_alg».proof.Defs
import proofs.«425267_j455266533601_3_alg».proof.Proof.Gen.Kernel.Frame
import proofs.«425267_j455266533601_3_alg».proof.Proof.Gen.KernelIdeal.Value
import proofs.«425267_j455266533601_3_alg».proof.Proof.Gen.Pre_finite_inputs
import proofs.«425267_j455266533601_3_alg».proof.Proof.Gen.ReferenceIdeal.Run
import proofs.«425267_j455266533601_3_alg».proof.Proof.KernelValue
import proofs.«425267_j455266533601_3_alg».proof.Proof.ReferenceValue
import proofs.«425267_j455266533601_3_alg».proof.Proof.Domain
import Idealize.ShloMosaic.Adequacy
import Idealize.ShloMosaic.Init

noncomputable section

namespace Cert.Proof

open Idealize.ShloMosaic Idealize.SL.Sem

/-- The idealized kernel runs and leaves its arguments alone: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments alone: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the three arguments, with every token id at least 0, both programs end with the phrase
    scores of the arguments in their result arrays. -/
theorem algebraic_KernelIdeal_ReferenceIdeal : algebraic_KernelIdeal_ReferenceIdeal := by
  intro m ρ m' ρ' hpre hagree
  refine ⟨fun c => Cert.TokenSum.phraseScore
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelValue.G3_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, (hagree c).1, (hagree c).2.1, (hagree c).2.2]
    exact Cert.ReferenceValue.ref_eq _ _ _ (Cert.Domain.tokens_nonneg _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
